-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S3200000 : Shape := ⟨1, ![3200000]⟩
abbrev S128x64 : Shape := ⟨2, ![128, 64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  main_v18

def fn {F : FTy → Type} [FloatOps F] (main_arg0 : FVec F S100000x128 .f32) (main_arg1 : IVec S3200000 32) (main_arg2 : IVec S3200000 32) (main_arg3 : FVec F S128x64 .f32) (main_arg4 : FVec F S64x64 .f32) (main_arg5 : FVec F S64x64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_v13 main_v16
-- ==== Kernel.lean ====
abbrev S100000x128 : Shape := ⟨2, ![100000, 128]⟩
abbrev S3200000 : Shape := ⟨1, ![3200000]⟩
abbrev S128x64 : Shape := ⟨2, ![128, 64]⟩
abbrev S64x64 : Shape := ⟨2, ![64, 64]⟩
abbrev S100000x64 : Shape := ⟨2, ![100000, 64]⟩
abbrev S10000x128 : Shape := ⟨2, ![10000, 128]⟩
abbrev S10000x64 : Shape := ⟨2, ![10000, 64]⟩
abbrev S_ : Shape := ⟨0, ![]⟩
abbrev S3200000x1 : Shape := ⟨2, ![3200000, 1]⟩
abbrev S3200000x64 : Shape := ⟨2, ![3200000, 64]⟩

abbrev nBuf : Space → Nat
  | .hbm => 37
  | .vmem => 21
  | .smem => 0
  | _ => 0

abbrev bufTy : (tb : Table) → Fin (tcTables nBuf tb) → BufTy
  | .hbm, ⟨0, _⟩ => ⟨S100000x128, .f32⟩
  | .hbm, ⟨1, _⟩ => ⟨S3200000, .i32⟩
  | .hbm, ⟨2, _⟩ => ⟨S3200000, .i32⟩
  | .hbm, ⟨3, _⟩ => ⟨S128x64, .f32⟩
  | .hbm, ⟨4, _⟩ => ⟨S64x64, .f32⟩
  | .hbm, ⟨5, _⟩ => ⟨S64x64, .f32⟩
  | .hbm, ⟨6, _⟩ => ⟨S100000x64, .f32⟩
  | .hbm, ⟨7, _⟩ => ⟨S_, .f32⟩
  | .hbm, ⟨8, _⟩ => ⟨S100000x64, .f32⟩
  | .hbm, ⟨9, _⟩ => ⟨S_, .i32⟩
  | .hbm, ⟨10, _⟩ => ⟨S3200000, .i32⟩
  | .hbm, ⟨11, _⟩ => ⟨S3200000, .i1⟩
  | .hbm, ⟨12, _⟩ => ⟨S_, .i32⟩
  | .hbm, ⟨13, _⟩ => ⟨S3200000, .i32⟩
  | .hbm, ⟨14, _⟩ => ⟨S3200000, .i32⟩
  | .hbm, ⟨15, _⟩ => ⟨S3200000, .i32⟩
  | .hbm, ⟨16, _⟩ => ⟨S3200000x1, .i32⟩
  | .hbm, ⟨17, _⟩ => ⟨S3200000x64, .f32⟩
  | .hbm, ⟨18, _⟩ => ⟨S_, .f32⟩
  | .hbm, ⟨19, _⟩ => ⟨S100000x64, .f32⟩
  | .hbm, ⟨20, _⟩ => ⟨S3200000x1, .i32⟩
  | .hbm, ⟨21, _⟩ => ⟨S100000x64, .f32⟩
  | .hbm, ⟨22, _⟩ => ⟨S100000x64, .f32⟩
  | .hbm, ⟨23, _⟩ => ⟨S_, .i32⟩
  | .hbm, ⟨24, _⟩ => ⟨S3200000, .i32⟩
  | .hbm, ⟨25, _⟩ => ⟨S3200000, .i1⟩
  | .hbm, ⟨26, _⟩ => ⟨S_, .i32⟩
  | .hbm, ⟨27, _⟩ => ⟨S3200000, .i32⟩
  | .hbm, ⟨28, _⟩ => ⟨S3200000, .i32⟩
  | .hbm, ⟨29, _⟩ => ⟨S3200000, .i32⟩
  | .hbm, ⟨30, _⟩ => ⟨S3200000x1, .i32⟩
  | .hbm, ⟨31, _⟩ => ⟨S3200000x64, .f32⟩
  | .hbm, ⟨32, _⟩ => ⟨S_, .f32⟩
  | .hbm, ⟨33, _⟩ => ⟨S100000x64, .f32⟩
  | .hbm, ⟨34, _⟩ => ⟨S3200000x1, .i32⟩
  | .hbm, ⟨35, _⟩ => ⟨S100000x64, .f32⟩
  | .hbm, ⟨36, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S64x64, .f32⟩
  | .local _ .vmem, ⟨10, _⟩ => ⟨S64x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S64x64, .f32⟩
  | .local _ .vmem, ⟨18, _⟩ => ⟨S64x64, .f32⟩
  | .local _ .vmem, ⟨19, _⟩ => ⟨S10000x64, .f32⟩
  | .local _ .vmem, ⟨20, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem4_0 : DmaSem sig := 19
abbrev cc2_sem4_1 : DmaSem sig := 20

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S_S100000x64 : S_.BroadcastsInDim S100000x64 (![] : Fin 0 → Fin S100000x64.rank)
  bcast_S_S3200000 : S_.BroadcastsInDim S3200000 (![] : Fin 0 → Fin S3200000.rank)
  bcast_S3200000_S3200000x1_0 : S3200000.BroadcastsInDim S3200000x1 (![0] : Fin 1 → Fin S3200000x1.rank)
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  dot_S10000x128_S128x64_S10000x64_1_0_0_1_n_n_wf : DotDims.WF S10000x128 S128x64 S10000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S100000x64.size a
  hwx1_4 : ∀ i : grid1.Coords, EltTy.bits .f32 = 32 ∨ (Rect.block (s := S100000x64) S10000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x64.size a ≤ S100000x64.size a
  hwx2_4 : ∀ i : grid2.Coords, EltTy.bits .f32 = 32 ∨ (Rect.block (s := S100000x64) S10000x64.size (cc2_transform_4 i) (hinb2_4 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v11) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v22) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg5) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v23) S10000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x128 : Shape := ⟨2, ![100000, 128]⟩
abbrev S3200000 : Shape := ⟨1, ![3200000]⟩
abbrev S128x64 : Shape := ⟨2, ![128, 64]⟩
abbrev S64x64 : Shape := ⟨2, ![64, 64]⟩
abbrev S100000x64 : Shape := ⟨2, ![100000, 64]⟩
abbrev S_ : Shape := ⟨0, ![]⟩
abbrev S3200000x1 : Shape := ⟨2, ![3200000, 1]⟩
abbrev S3200000x64 : Shape := ⟨2, ![3200000, 64]⟩

abbrev nBuf : Space → Nat
  | .hbm => 49
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S3200000, .i32⟩
  | .hbm, ⟨2, _⟩ => ⟨S3200000, .i32⟩
  | .hbm, ⟨3, _⟩ => ⟨S128x64, .f32⟩
  | .hbm, ⟨4, _⟩ => ⟨S64x64, .f32⟩
  | .hbm, ⟨5, _⟩ => ⟨S64x64, .f32⟩
  | .hbm, ⟨6, _⟩ => ⟨S100000x64, .f32⟩
  | .hbm, ⟨7, _⟩ => ⟨S_, .f32⟩
  | .hbm, ⟨8, _⟩ => ⟨S100000x64, .f32⟩
  | .hbm, ⟨9, _⟩ => ⟨S_, .i32⟩
  | .hbm, ⟨10, _⟩ => ⟨S3200000, .i32⟩
  | .hbm, ⟨11, _⟩ => ⟨S3200000, .i1⟩
  | .hbm, ⟨12, _⟩ => ⟨S_, .i32⟩
  | .hbm, ⟨13, _⟩ => ⟨S3200000, .i32⟩
  | .hbm, ⟨14, _⟩ => ⟨S3200000, .i32⟩
  | .hbm, ⟨15, _⟩ => ⟨S3200000, .i32⟩
  | .hbm, ⟨16, _⟩ => ⟨S3200000x1, .i32⟩
  | .hbm, ⟨17, _⟩ => ⟨S3200000x64, .f32⟩
  | .hbm, ⟨18, _⟩ => ⟨S_, .f32⟩
  | .hbm, ⟨19, _⟩ => ⟨S100000x64, .f32⟩
  | .hbm, ⟨20, _⟩ => ⟨S3200000x1, .i32⟩
  | .hbm, ⟨21, _⟩ => ⟨S100000x64, .f32⟩
  | .hbm, ⟨22, _⟩ => ⟨S100000x64, .f32⟩
  | .hbm, ⟨23, _⟩ => ⟨S_, .f32⟩
  | .hbm, ⟨24, _⟩ => ⟨S100000x64, .f32⟩
  | .hbm, ⟨25, _⟩ => ⟨S100000x64, .f32⟩
  | .hbm, ⟨26, _⟩ => ⟨S100000x64, .f32⟩
  | .hbm, ⟨27, _⟩ => ⟨S100000x64, .f32⟩
  | .hbm, ⟨28, _⟩ => ⟨S100000x64, .f32⟩
  | .hbm, ⟨29, _⟩ => ⟨S_, .i32⟩
  | .hbm, ⟨30, _⟩ => ⟨S3200000, .i32⟩
  | .hbm, ⟨31, _⟩ => ⟨S3200000, .i1⟩
  | .hbm, ⟨32, _⟩ => ⟨S_, .i32⟩
  | .hbm, ⟨33, _⟩ => ⟨S3200000, .i32⟩
  | .hbm, ⟨34, _⟩ => ⟨S3200000, .i32⟩
  | .hbm, ⟨35, _⟩ => ⟨S3200000, .i32⟩
  | .hbm, ⟨36, _⟩ => ⟨S3200000x1, .i32⟩
  | .hbm, ⟨37, _⟩ => ⟨S3200000x64, .f32⟩
  | .hbm, ⟨38, _⟩ => ⟨S_, .f32⟩
  | .hbm, ⟨39, _⟩ => ⟨S100000x64, .f32⟩
  | .hbm, ⟨40, _⟩ => ⟨S3200000x1, .i32⟩
  | .hbm, ⟨41, _⟩ => ⟨S100000x64, .f32⟩
  | .hbm, ⟨42, _⟩ => ⟨S100000x64, .f32⟩
  | .hbm, ⟨43, _⟩ => ⟨S_, .f32⟩
  | .hbm, ⟨44, _⟩ => ⟨S100000x64, .f32⟩
  | .hbm, ⟨45, _⟩ => ⟨S100000x64, .f32⟩
  | .hbm, ⟨46, _⟩ => ⟨S100000x64, .f32⟩
  | .hbm, ⟨47, _⟩ => ⟨S100000x64, .f32⟩
  | .hbm, ⟨48, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_call0_cst : Ref sig .tc := ⟨.hbm, 23, rfl⟩
abbrev main_call0_v0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_call1_cst : Ref sig .tc := ⟨.hbm, 43, rfl⟩
abbrev main_call1_v0 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]

class Facts₀ : Prop where
  bcast_S_S100000x64 : S_.BroadcastsInDim S100000x64 (![] : Fin 0 → Fin S100000x64.rank)
  bcast_S_S3200000 : S_.BroadcastsInDim S3200000 (![] : Fin 0 → Fin S3200000.rank)
  bcast_S3200000_S3200000x1_0 : S3200000.BroadcastsInDim S3200000x1 (![0] : Fin 1 → Fin S3200000x1.rank)
  dot_S100000x128_S128x64_S100000x64_1_0_0_1_n_n_wf : DotDims.WF S100000x128 S128x64 S100000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x64_S100000x64_1_0_0_1_n_n_wf : DotDims.WF S100000x64 S64x64 S100000x64 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.LibPlainDot.lean ====
/-
  A plain matrix product read at one entry.

  For dimension numbers that contract the left operand's columns with the right operand's rows and have no batch
  axis — an A×K matrix times a K×B matrix — entry (p, q) of the product over the extended reals is
  the sum over k < K of left (p, k) · right (k, q). The library states a matrix product's entry as a sum over the
  contraction's own index type, with both operand indices computed from the dimension numbers; here that sum is
  re-indexed once to k : Fin K and both operand indices are named by their coordinates, for any extents A, K, B.
  Stated for the vector unit's product into a zero accumulator and for the host's dot_general.
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {A K B : ℕ} (d : DotDims ⟨2, ![A, K]⟩ ⟨2, ![K, B]⟩ ⟨2, ![A, B]⟩)

/-- The left operand is read in the row of the result's entry. -/
theorem lhs_row (hln : d.lhsNonContracting = [0]) (hlb : d.lhsBatch = [])
    (j : (⟨2, ![A, B]⟩ : Shape).Idx) (k : d.contr.Idx) : (d.lhsIdx j k 0).val = (j 0).val := by
  have hb : (0 : Fin (⟨2, ![A, K]⟩ : Shape).rank) ∉ d.lhsBatch := by rw [hlb]; exact List.not_mem_nil
  have hn : (0 : Fin (⟨2, ![A, K]⟩ : Shape).rank) ∈ d.lhsNonContracting := by rw [hln]; exact List.mem_singleton.mpr rfl
  unfold DotDims.lhsIdx
  rw [dif_neg hb, dif_pos hn]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb h => by subst h; rfl
  exact key _ _ _ _ (by simp [hlb, hln])

/-- The left operand is read in the column the contraction position names. -/
theorem lhs_col (hlc : d.lhsContracting = [1]) (j : (⟨2, ![A, B]⟩ : Shape).Idx) (k : d.contr.Idx) :
    (d.lhsIdx j k 1).val = (k ⟨0, by rw [d.rank_contr, hlc]; exact Nat.one_pos⟩).val :=
  d.lhsIdx_val_of_single hlc j k

/-- The right operand is read in the row the contraction position names. -/
theorem rhs_row (hrc : d.rhsContracting = [0]) (j : (⟨2, ![A, B]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand is read in the column of the result's entry. -/
theorem rhs_col (hln : d.lhsNonContracting = [0]) (hrn : d.rhsNonContracting = [1]) (hlb : d.lhsBatch = []) (hrb : d.rhsBatch = [])
    (j : (⟨2, ![A, B]⟩ : Shape).Idx) (k : d.contr.Idx) : (d.rhsIdx j k 1).val = (j 1).val := by
  have hb : (1 : Fin (⟨2, ![K, B]⟩ : Shape).rank) ∉ d.rhsBatch := by rw [hrb]; exact List.not_mem_nil
  have hn : (1 : Fin (⟨2, ![K, B]⟩ : Shape).rank) ∈ d.rhsNonContracting := by rw [hrn]; exact List.mem_singleton.mpr rfl
  unfold DotDims.rhsIdx
  rw [dif_neg hb, dif_pos hn]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb h => by subst h; rfl
  exact key _ _ _ _ (by simp [hlb, hln, hrn])

/-- The contraction's sum at entry (p, q), over k < K with both operands named by coordinates. -/
theorem sum_plain (hlc : d.lhsContracting = [1]) (hrc : d.rhsContracting = [0])
    (hln : d.lhsNonContracting = [0]) (hrn : d.rhsNonContracting = [1]) (hlb : d.lhsBatch = []) (hrb : d.rhsBatch = [])
    (hr : d.contr.rank = 1) (hs : d.contr.size ⟨0, by omega⟩ = K)
    (l : (⟨2, ![A, K]⟩ : Shape).Idx → EReal) (r : (⟨2, ![K, B]⟩ : Shape).Idx → EReal) (p : Fin A) (q : Fin B) :
    ∑ k : d.contr.Idx, l (d.lhsIdx (ix2 p q) k) * r (d.rhsIdx (ix2 p q) k) = ∑ k : Fin K, l (ix2 p k) * r (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hln hlb _ _
    | ⟨1, _⟩ => exact (lhs_col d hlc _ _).trans hk)
  have er : d.rhsIdx (ix2 p q) ((contrEquiv1 d K hr hs).symm k) = ix2 k q := funext fun a => Fin.ext (by
    match a with
    | ⟨0, _⟩ => exact (rhs_row d hrc _ _).trans hk
    | ⟨1, _⟩ => exact rhs_col d hln hrn hlb hrb _ _)
  rw [el, er]

/-- The vector unit's product into the zero accumulator, at entry (p, q). -/
theorem matmul_zero_apply {φ₁ φ₂ : FTy} (prec : Option ContractPrecision)
    (hlc : d.lhsContracting = [1]) (hrc : d.rhsContracting = [0])
    (hln : d.lhsNonContracting = [0]) (hrn : d.rhsNonContracting = [1]) (hlb : d.lhsBatch = []) (hrb : d.rhsBatch = [])
    (hr : d.contr.rank = 1) (hs : d.contr.size ⟨0, by omega⟩ = K)
    (l : FVec Ideal ⟨2, ![A, K]⟩ φ₁) (r : FVec Ideal ⟨2, ![K, B]⟩ φ₂) (p : Fin A) (q : Fin B) :
    matmul d prec l r (constant ⟨2, ![A, B]⟩ .f32 0x00000000#32) (ix2 p q) = ∑ k : Fin K, l (ix2 p k) * r (ix2 k q) := by
  simp only [matmul]
  rw [Ideal.matmul_constant_zero_apply]
  exact sum_plain d hlc hrc hln hrn hlb hrb hr hs l r p q

/-- The host's dot_general, at entry (p, q). -/
theorem dotGeneral_apply {φ₁ φ₂ : FTy} (prec : Option ContractPrecision)
    (hlc : d.lhsContracting = [1]) (hrc : d.rhsContracting = [0])
    (hln : d.lhsNonContracting = [0]) (hrn : d.rhsNonContracting = [1]) (hlb : d.lhsBatch = []) (hrb : d.rhsBatch = [])
    (hr : d.contr.rank = 1) (hs : d.contr.size ⟨0, by omega⟩ = K)
    (l : FVec Ideal ⟨2, ![A, K]⟩ φ₁) (r : FVec Ideal ⟨2, ![K, B]⟩ φ₂) (p : Fin A) (q : Fin B) :
    Host.dotGeneral d prec l r (ix2 p q) = ∑ k : Fin K, l (ix2 p k) * r (ix2 k q) := by
  simp only [Host.dotGeneral]
  rw [Ideal.dotGeneral_apply]
  exact sum_plain d hlc hrc hln hrn hlb hrb hr hs l r p q

end Cert.LibPlainDot

end
-- ==== Proof.Rows.lean ====
/-
  The two row-wise maps of the message-passing network, over the extended reals.

  `lin x w` is the matrix product of an A×128 matrix with a 128×64 matrix: entry (p, q) is the sum over k of x (p, k) · w (k, q).
  `mlp m b w1 w2` is the node update: entry (p, q) is tanh (b (p, q) + Σ_k max (Σ_l m (p, l) · w1 (l, k), 0) · w2 (k, q)),
  a two-layer perceptron with a rectifier between the layers applied to row p of m, added to the base term b.
  Row p of either result depends on row p of its first operand (and of b) only, and on the weights: the congruence lemmas
  say so, for matrices with different numbers of rows. That is what lets a block of rows be computed from a block of rows.
-/
import Idealize.ShloMosaic.Lib.ValueIdx
import Idealize.ShloMosaic.PureOps.Ideal.Laws

noncomputable section

open scoped BigOperators

namespace Cert.Rows

open Idealize.ShloMosaic Idealize.ShloMosaic.ValueIdx

/-- Rows of `x` times `w`. -/
def lin {A : ℕ} (x : FVec Ideal ⟨2, ![A, 128]⟩ .f32) (w : FVec Ideal ⟨2, ![128, 64]⟩ .f32) : FVec Ideal ⟨2, ![A, 64]⟩ .f32 :=
  fun i => ∑ k : Fin 128, x (ix2 (⟨(i 0).val, idx2_lt0 i⟩ : Fin A) k) * w (ix2 k (⟨(i 1).val, idx2_lt1 i⟩ : Fin 64))

theorem lin_apply {A : ℕ} (x : FVec Ideal ⟨2, ![A, 128]⟩ .f32) (w : FVec Ideal ⟨2, ![128, 64]⟩ .f32) (p : Fin A) (q : Fin 64) :
    lin x w (ix2 p q) = ∑ k : Fin 128, x (ix2 p k) * w (ix2 k q) := rfl

/-- Row `p'` of one product is row `p` of another when the left operands agree on those rows and the right operands on column `q`. -/
theorem lin_congr {A A' : ℕ} (x : FVec Ideal ⟨2, ![A, 128]⟩ .f32) (x' : FVec Ideal ⟨2, ![A', 128]⟩ .f32)
    (w w' : FVec Ideal ⟨2, ![128, 64]⟩ .f32) (p : Fin A) (p' : Fin A') (q : Fin 64)
    (hx : ∀ k, x' (ix2 p' k) = x (ix2 p k)) (hw : ∀ k, w' (ix2 k q) = w (ix2 k q)) :
    lin x' w' (ix2 p' q) = lin x w (ix2 p q) := by
  rw [lin_apply, lin_apply]
  exact Finset.sum_congr rfl fun k _ => by rw [hx k, hw k]

/-- The node update: tanh of the base term plus the two-layer perceptron of a row of `m`. -/
def mlp {A : ℕ} (m b : FVec Ideal ⟨2, ![A, 64]⟩ .f32) (w1 w2 : FVec Ideal ⟨2, ![64, 64]⟩ .f32) : FVec Ideal ⟨2, ![A, 64]⟩ .f32 :=
  fun i => Ideal.tanh (b i + ∑ k : Fin 64,
    max (∑ l : Fin 64, m (ix2 (⟨(i 0).val, idx2_lt0 i⟩ : Fin A) l) * w1 (ix2 l k)) (Ideal.ofBits .f32 0x00000000#32)
      * w2 (ix2 k (⟨(i 1).val, idx2_lt1 i⟩ : Fin 64)))

theorem mlp_apply {A : ℕ} (m b : FVec Ideal ⟨2, ![A, 64]⟩ .f32) (w1 w2 : FVec Ideal ⟨2, ![64, 64]⟩ .f32) (p : Fin A) (q : Fin 64) :
    mlp m b w1 w2 (ix2 p q) = Ideal.tanh (b (ix2 p q) + ∑ k : Fin 64,
      max (∑ l : Fin 64, m (ix2 p l) * w1 (ix2 l k)) (Ideal.ofBits .f32 0x00000000#32) * w2 (ix2 k q)) := rfl

/-- Row `p'` of one update is row `p` of another when the aggregated rows agree, the base entries agree and the weights agree. -/
theorem mlp_congr {A A' : ℕ} (m b : FVec Ideal ⟨2, ![A, 64]⟩ .f32) (m' b' : FVec Ideal ⟨2, ![A', 64]⟩ .f32)
    (w1 w2 w1' w2' : FVec Ideal ⟨2, ![64, 64]⟩ .f32) (p : Fin A) (p' : Fin A') (q : Fin 64)
    (hm : ∀ l, m' (ix2 p' l) = m (ix2 p l)) (hb : b' (ix2 p' q) = b (ix2 p q))
    (hw1 : ∀ l k, w1' (ix2 l k) = w1 (ix2 l k)) (hw2 : ∀ k, w2' (ix2 k q) = w2 (ix2 k q)) :
    mlp m' b' w1' w2' (ix2 p' q) = mlp m b w1 w2 (ix2 p q) := by
  rw [mlp_apply, mlp_apply, hb]
  refine congrArg (fun s => Ideal.tanh (b (ix2 p q) + s)) (Finset.sum_congr rfl fun k _ => ?_)
  rw [hw2 k]
  refine congrArg (fun s => max s (Ideal.ofBits .f32 0x00000000#32) * w2 (ix2 k q)) (Finset.sum_congr rfl fun l _ => ?_)
  rw [hm l, hw1 l k]

end Cert.Rows

end
-- ==== Proof.Payloads.lean ====
/-
  What each kernel body stores, as a function of what it loads, over the extended reals.

  The projection kernel stores the product of its row block with the weight matrix: the change of format to sixteen
  bits is the identity on the extended reals and the product accumulates into zero, so the stored block is
  `Rows.lin` of the loaded block and the loaded weights. The update kernel (launched twice) stores
  tanh (base + max (m · W1, 0) · W2) of its loaded blocks: `Rows.mlp`.
-/
import proofs.«181280_j1666447311066_1_alg».proof.Proof.Gen.KernelIdeal.Skeleton
import proofs.«181280_j1666447311066_1_alg».proof.Proof.LibPlainDot
import proofs.«181280_j1666447311066_1_alg».proof.Proof.Rows
import Idealize.ShloMosaic.Lib.Pipeline.Value

noncomputable section

open scoped BigOperators

namespace Cert.KernelIdeal.Pay

open Cert.KernelIdeal Cert.KernelIdeal.Gen Idealize.ShloMosaic Idealize.ShloMosaic.ValueIdx

/-- The projection kernel's stored block. -/
theorem pay0 (x0 : Vec Ideal S10000x128 .f32) (x1 : Vec Ideal S128x64 .f32) :
    k0_pay1 (F := Ideal) x0 x1 = Cert.Rows.lin x0 x1 := by
  funext j
  obtain ⟨p, q, rfl⟩ : ∃ (p : Fin 10000) (q : Fin 64), j = ix2 p q := ⟨j 0, j 1, eq_ix2 j⟩
  unfold k0_pay1
  exact Cert.LibPlainDot.matmul_zero_apply _ none rfl rfl rfl rfl rfl rfl rfl rfl _ _ p q

/-- The inner product of the update kernel, at one entry: row p of the aggregated block against column k of the first weights. -/
theorem hidden (x0 : Vec Ideal S10000x64 .f32) (x3 : Vec Ideal S64x64 .f32) (p : Fin 10000) (k : Fin 64) :
    matmul (F := Ideal) dot_S10000x64_S64x64_S10000x64_1_0_0_1_n_n none
        (truncf .bf16 (shapeCast S10000x64 x0 shapeCasts_S10000x64_S10000x64) bitsLt_bf16_f32) (truncf .bf16 x3 bitsLt_bf16_f32)
        (constant S10000x64 .f32 0x00000000#32) (ix2 p k)
      = ∑ l : Fin 64, x0 (ix2 p l) * x3 (ix2 l k) := by
  rw [Cert.LibPlainDot.matmul_zero_apply _ none rfl rfl rfl rfl rfl rfl rfl rfl _ _ p k]
  rw [shapeCast_self]
  rfl

/-- The first update kernel's stored block. -/
theorem pay1 (x0 : Vec Ideal S10000x64 .f32) (x3 : Vec Ideal S64x64 .f32) (x9 : Vec Ideal S64x64 .f32) (x12 : Vec Ideal S10000x64 .f32) :
    k1_pay1 (F := Ideal) x0 x3 x9 x12 = Cert.Rows.mlp x0 x12 x3 x9 := by
  funext j
  obtain ⟨p, q, rfl⟩ : ∃ (p : Fin 10000) (q : Fin 64), j = ix2 p q := ⟨j 0, j 1, eq_ix2 j⟩
  unfold k1_pay1
  rw [Cert.Rows.mlp_apply]
  show Ideal.tanh (shapeCast S10000x64 x12 shapeCasts_S10000x64_S10000x64 (ix2 p q) + _) = _
  rw [shapeCast_self]
  refine congrArg (fun s => Ideal.tanh (x12 (ix2 p q) + s)) ?_
  refine (Cert.LibPlainDot.matmul_zero_apply _ none rfl rfl rfl rfl rfl rfl rfl rfl _ _ p q).trans ?_
  refine Finset.sum_congr rfl fun k _ => ?_
  refine congrArg (fun s => max s (Ideal.ofBits .f32 0x00000000#32) * x9 (ix2 k q)) ?_
  exact hidden x0 x3 p k

/-- The second update kernel's stored block: the same function. -/
theorem pay2 (x0 : Vec Ideal S10000x64 .f32) (x3 : Vec Ideal S64x64 .f32) (x9 : Vec Ideal S64x64 .f32) (x12 : Vec Ideal S10000x64 .f32) :
    k2_pay1 (F := Ideal) x0 x3 x9 x12 = Cert.Rows.mlp x0 x12 x3 x9 := by
  funext j
  obtain ⟨p, q, rfl⟩ : ∃ (p : Fin 10000) (q : Fin 64), j = ix2 p q := ⟨j 0, j 1, eq_ix2 j⟩
  unfold k2_pay1
  rw [Cert.Rows.mlp_apply]
  show Ideal.tanh (shapeCast S10000x64 x12 shapeCasts_S10000x64_S10000x64 (ix2 p q) + _) = _
  rw [shapeCast_self]
  refine congrArg (fun s => Ideal.tanh (x12 (ix2 p q) + s)) ?_
  refine (Cert.LibPlainDot.matmul_zero_apply _ none rfl rfl rfl rfl rfl rfl rfl rfl _ _ p q).trans ?_
  refine Finset.sum_congr rfl fun k _ => ?_
  refine congrArg (fun s => max s (Ideal.ofBits .f32 0x00000000#32) * x9 (ix2 k q)) ?_
  exact hidden x0 x3 p k

end Cert.KernelIdeal.Pay

end
-- ==== Proof.Region0.lean ====
/-
  The projection launch: the array it leaves is the product of the features with the projection weights.

  Grid point t loads rows 10000·t … 10000·t + 9999 of the feature matrix and the whole weight matrix, and writes back the
  same rows of the result. Each written row is the product of the corresponding feature row with the weights, so every
  written block is a block of ONE function of the whole arrays, `Rows.lin`; the ten blocks tile the 100000 rows, so after the
  launch the result array is that function.
-/
import proofs.«181280_j1666447311066_1_alg».proof.Proof.Gen.KernelIdeal.Frame
import proofs.«181280_j1666447311066_1_alg».proof.Proof.Payloads
import Idealize.ShloMosaic.Lib.Pipeline.Value

set_option maxRecDepth 16384

noncomputable section

open scoped BigOperators

namespace Cert.KernelIdeal.Proj

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

/-- The feature matrix and the projection weights as the launch finds them. -/
abbrev feat (c : Dev nD) : FVec Ideal S100000x128 .f32 := V c main_arg0
abbrev wlin (c : Dev nD) : FVec Ideal S128x64 .f32 := V c main_arg3

theorem hz : (![0, 0] : Fin 2 → Nat) = fun _ => 0 := funext fun a => by fin_cases a <;> rfl

/-- Where each window's block sits at a grid point: the feature block moves with the output block along the rows, every
    other block index is zero, and there are ten row blocks. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every row block is some grid point's. -/
theorem idx_onto : ∀ q0 : Fin 10, ∃ t : Fin cfg0.N, win0_2.index t = ![q0.val, 0] :=
  (by decide +kernel : ∀ q0 : Fin 10, ∃ t : Fin grid0.N, win0_2.index t = ![q0.val, 0])

/-- What grid point t writes back is block t of the product of the whole arrays. -/
theorem flushed_eq (c : Dev nD) (t : Fin cfg0.N) :
    (dat0 V c).flushed 2 t = ((cfg0.win 2).blk t).view.read (Elt Ideal) (Cert.Rows.lin (feat V c) (wlin V c)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x64) hz]
  rw [Pay.pay0]
  obtain ⟨e0, e1, e2, e3, e4, e5⟩ := idx_facts t
  funext j
  obtain ⟨p, q, rfl⟩ : ∃ (p : Fin 10000) (q : Fin 64), j = ix2 p q := ⟨j 0, j 1, eq_ix2 j⟩
  have hP : win0_2.index t (0 : Fin 2) * 10000 + p.val < 100000 := by have := p.isLt; omega
  have hemb : ((cfg0.win 2).blk t).view.emb (ix2 p q) = ix2 (⟨win0_2.index t (0 : Fin 2) * 10000 + p.val, hP⟩ : Fin 100000) q := by
    funext a; apply Fin.ext
    match a with
    | ⟨0, _⟩ => show win0_2.index t (0 : Fin 2) * 10000 + 1 * p.val = win0_2.index t (0 : Fin 2) * 10000 + p.val; omega
    | ⟨1, _⟩ => show win0_2.index t (1 : Fin 2) * 64 + 1 * q.val = q.val; omega
  show Cert.Rows.lin (iblk0 V c 0 t) (iblk0 V c 1 t) (ix2 p q) = Cert.Rows.lin (feat V c) (wlin V c) (((cfg0.win 2).blk t).view.emb (ix2 p q))
  rw [hemb]
  refine Cert.Rows.lin_congr (feat V c) (iblk0 V c 0 t) (wlin V c) (iblk0 V c 1 t) _ p q (fun k => ?_) (fun k => ?_)
  · show V c main_arg0 (((cfg0.win 0).blk t).view.emb (ix2 p k)) = V c main_arg0 (ix2 (⟨win0_2.index t (0 : Fin 2) * 10000 + p.val, hP⟩ : Fin 100000) k)
    refine congrArg (V c main_arg0) ?_
    funext a; apply Fin.ext
    match a with
    | ⟨0, _⟩ => show win0_0.index t (0 : Fin 2) * 10000 + 1 * p.val = win0_2.index t (0 : Fin 2) * 10000 + p.val; omega
    | ⟨1, _⟩ => show win0_0.index t (1 : Fin 2) * 128 + 1 * k.val = k.val; omega
  · show V c main_arg3 (((cfg0.win 1).blk t).view.emb (ix2 k q)) = V c main_arg3 (ix2 k q)
    refine congrArg (V c main_arg3) ?_
    funext a; apply Fin.ext
    match a with
    | ⟨0, _⟩ => show win0_1.index t (0 : Fin 2) * 128 + 1 * k.val = k.val; omega
    | ⟨1, _⟩ => show win0_1.index t (1 : Fin 2) * 64 + 1 * q.val = q.val; omega

/-- An index of the result array is in grid point t's block iff each coordinate is in the block's range. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v0).slice (win0_2.rect t)).set ↔ _
  rw [View.set_slice_whole, Rect.mem_set_unit]
  exact Iff.rfl

/-- Row r of the result is written by the grid point of row block r / 10000. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- After the launch the result array is the product of the features with the projection weights. -/
theorem final (c : Dev nD) : (dat0 V c).arrAt 2 cfg0.N = Cert.Rows.lin (feat V c) (wlin V c) :=
  (dat0 V c).arrAt_eq_of_cover 2 _ (fun t _ => flushed_eq V c t) cover

end Cert.KernelIdeal.Proj

end
-- ==== Proof.Region1.lean ====
/-
  The first update launch: the array it leaves is the node update of the aggregated messages.

  Grid point t loads rows 10000·t … 10000·t + 9999 of the aggregated messages and of the base term, and both weight
  matrices whole, and writes back the same rows of the result. Each written row is tanh (base row + max (message row · W1, 0) · W2),
  so every written block is a block of ONE function of the whole arrays, `Rows.mlp`; the ten blocks tile the 100000 rows, so
  after the launch the result array is that function.
-/
import proofs.«181280_j1666447311066_1_alg».proof.Proof.Gen.KernelIdeal.Frame
import proofs.«181280_j1666447311066_1_alg».proof.Proof.Payloads
import Idealize.ShloMosaic.Lib.Pipeline.Value

set_option maxRecDepth 16384

noncomputable section

open scoped BigOperators

namespace Cert.KernelIdeal.Upd1

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

/-- The aggregated messages, the base term and the two weight matrices as the launch finds them. -/
abbrev msg (c : Dev nD) : FVec Ideal S100000x64 .f32 := V c main_v11
abbrev base (c : Dev nD) : FVec Ideal S100000x64 .f32 := V c main_v0
abbrev wd1 (c : Dev nD) : FVec Ideal S64x64 .f32 := V c main_arg4
abbrev wd2 (c : Dev nD) : FVec Ideal S64x64 .f32 := V c main_arg5

theorem hz : (![0, 0] : Fin 2 → Nat) = fun _ => 0 := funext fun a => by fin_cases a <;> rfl

/-- Where each window's block sits at a grid point: the message block and the base block move with the output block along
    the rows, every other block index is zero, and there are ten row blocks. -/
theorem idx_facts : ∀ t : Fin cfg1.N, win1_0.index t (0 : Fin 2) = win1_4.index t (0 : Fin 2)
    ∧ win1_0.index t (1 : Fin 2) = 0
    ∧ win1_1.index t (0 : Fin 2) = win1_4.index t (0 : Fin 2)
    ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (1 : Fin 2) = 0 ∧ win1_4.index t (0 : Fin 2) ≤ 9 :=
  (by decide +kernel : ∀ t : Fin grid1.N, _)

/-- Every row block is some grid point's. -/
theorem idx_onto : ∀ q0 : Fin 10, ∃ t : Fin cfg1.N, win1_4.index t = ![q0.val, 0] :=
  (by decide +kernel : ∀ q0 : Fin 10, ∃ t : Fin grid1.N, win1_4.index t = ![q0.val, 0])

/-- What grid point t writes back is block t of the node update of the whole arrays. -/
theorem flushed_eq (c : Dev nD) (t : Fin cfg1.N) :
    (dat1 V c).flushed 4 t = ((cfg1.win 4).blk t).view.read (Elt Ideal) (Cert.Rows.mlp (msg V c) (base V c) (wd1 V c) (wd2 V c)) := by
  show (cfg1.win 4).cut (grid1.coords t) ((dat1 V c).after 4 t) = _
  rw [after1_4]
  unfold out1_4
  rw [View.canon_unit_zero hz]
  simp only [View.ld_unit_zero (S := S10000x64) hz, View.ld_unit_zero (S := S64x64) hz]
  rw [Pay.pay1]
  obtain ⟨e0, e1, e2, e3, e4, e5, e6, e7, e8, e9⟩ := idx_facts t
  funext j
  obtain ⟨p, q, rfl⟩ : ∃ (p : Fin 10000) (q : Fin 64), j = ix2 p q := ⟨j 0, j 1, eq_ix2 j⟩
  have hP : win1_4.index t (0 : Fin 2) * 10000 + p.val < 100000 := by have := p.isLt; omega
  have hemb : ((cfg1.win 4).blk t).view.emb (ix2 p q) = ix2 (⟨win1_4.index t (0 : Fin 2) * 10000 + p.val, hP⟩ : Fin 100000) q := by
    funext a; apply Fin.ext
    match a with
    | ⟨0, _⟩ => show win1_4.index t (0 : Fin 2) * 10000 + 1 * p.val = win1_4.index t (0 : Fin 2) * 10000 + p.val; omega
    | ⟨1, _⟩ => show win1_4.index t (1 : Fin 2) * 64 + 1 * q.val = q.val; omega
  show Cert.Rows.mlp (iblk1 V c 0 t) (iblk1 V c 1 t) (iblk1 V c 2 t) (iblk1 V c 3 t) (ix2 p q)
    = Cert.Rows.mlp (msg V c) (base V c) (wd1 V c) (wd2 V c) (((cfg1.win 4).blk t).view.emb (ix2 p q))
  rw [hemb]
  refine Cert.Rows.mlp_congr (msg V c) (base V c) (iblk1 V c 0 t) (iblk1 V c 1 t) (wd1 V c) (wd2 V c) (iblk1 V c 2 t) (iblk1 V c 3 t) _ p q
    (fun l => ?_) ?_ (fun l k => ?_) (fun k => ?_)
  · show V c main_v11 (((cfg1.win 0).blk t).view.emb (ix2 p l)) = V c main_v11 (ix2 (⟨win1_4.index t (0 : Fin 2) * 10000 + p.val, hP⟩ : Fin 100000) l)
    refine congrArg (V c main_v11) ?_
    funext a; apply Fin.ext
    match a with
    | ⟨0, _⟩ => show win1_0.index t (0 : Fin 2) * 10000 + 1 * p.val = win1_4.index t (0 : Fin 2) * 10000 + p.val; omega
    | ⟨1, _⟩ => show win1_0.index t (1 : Fin 2) * 64 + 1 * l.val = l.val; omega
  · show V c main_v0 (((cfg1.win 1).blk t).view.emb (ix2 p q)) = V c main_v0 (ix2 (⟨win1_4.index t (0 : Fin 2) * 10000 + p.val, hP⟩ : Fin 100000) q)
    refine congrArg (V c main_v0) ?_
    funext a; apply Fin.ext
    match a with
    | ⟨0, _⟩ => show win1_1.index t (0 : Fin 2) * 10000 + 1 * p.val = win1_4.index t (0 : Fin 2) * 10000 + p.val; omega
    | ⟨1, _⟩ => show win1_1.index t (1 : Fin 2) * 64 + 1 * q.val = q.val; omega
  · show V c main_arg4 (((cfg1.win 2).blk t).view.emb (ix2 l k)) = V c main_arg4 (ix2 l k)
    refine congrArg (V c main_arg4) ?_
    funext a; apply Fin.ext
    match a with
    | ⟨0, _⟩ => show win1_2.index t (0 : Fin 2) * 64 + 1 * l.val = l.val; omega
    | ⟨1, _⟩ => show win1_2.index t (1 : Fin 2) * 64 + 1 * k.val = k.val; omega
  · show V c main_arg5 (((cfg1.win 3).blk t).view.emb (ix2 k q)) = V c main_arg5 (ix2 k q)
    refine congrArg (V c main_arg5) ?_
    funext a; apply Fin.ext
    match a with
    | ⟨0, _⟩ => show win1_3.index t (0 : Fin 2) * 64 + 1 * k.val = k.val; omega
    | ⟨1, _⟩ => show win1_3.index t (1 : Fin 2) * 64 + 1 * q.val = q.val; omega

/-- An index of the result array is in grid point t's block iff each coordinate is in the block's range. -/
theorem mem_blk (t : Fin cfg1.N) (i : S100000x64.Idx) :
    i ∈ ((cfg1.win 4).blk t).view.set ↔ ∀ a : Fin 2, win1_4.index t a * S10000x64.size a ≤ (i a).val ∧ (i a).val < win1_4.index t a * S10000x64.size a + S10000x64.size a := by
  show i ∈ ((View.whole main_v12).slice (win1_4.rect t)).set ↔ _
  rw [View.set_slice_whole, Rect.mem_set_unit]
  exact Iff.rfl

/-- Row r of the result is written by the grid point of row block r / 10000. -/
theorem cover (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  obtain ⟨t, ht⟩ := idx_onto ⟨(i 0).val / 10000, by omega⟩
  have q0 : win1_4.index t (0 : Fin 2) = (i 0).val / 10000 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 10000 ≤ (i 0).val ∧ (i 0).val < win1_4.index t (0 : Fin 2) * 10000 + 10000; omega
  | ⟨1, _⟩ => show win1_4.index t (1 : Fin 2) * 64 ≤ (i 1).val ∧ (i 1).val < win1_4.index t (1 : Fin 2) * 64 + 64; omega

/-- After the launch the result array is the node update of the aggregated messages over the base term. -/
theorem final (c : Dev nD) : (dat1 V c).arrAt 4 cfg1.N = Cert.Rows.mlp (msg V c) (base V c) (wd1 V c) (wd2 V c) :=
  (dat1 V c).arrAt_eq_of_cover 4 _ (fun t _ => flushed_eq V c t) cover

end Cert.KernelIdeal.Upd1

end
-- ==== Proof.Region2.lean ====
/-
  The second update launch: the array it leaves is the node update of the aggregated messages.

  Grid point t loads rows 10000·t … 10000·t + 9999 of the aggregated messages and of the base term, and both weight
  matrices whole, and writes back the same rows of the result. Each written row is tanh (base row + max (message row · W1, 0) · W2),
  so every written block is a block of ONE function of the whole arrays, `Rows.mlp`; the ten blocks tile the 100000 rows, so
  after the launch the result array is that function.
-/
import proofs.«181280_j1666447311066_1_alg».proof.Proof.Gen.KernelIdeal.Frame
import proofs.«181280_j1666447311066_1_alg».proof.Proof.Payloads
import Idealize.ShloMosaic.Lib.Pipeline.Value

set_option maxRecDepth 16384

noncomputable section

open scoped BigOperators

namespace Cert.KernelIdeal.Upd2

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

/-- The aggregated messages, the base term and the two weight matrices as the launch finds them. -/
abbrev msg (c : Dev nD) : FVec Ideal S100000x64 .f32 := V c main_v22
abbrev base (c : Dev nD) : FVec Ideal S100000x64 .f32 := V c main_v0
abbrev wd1 (c : Dev nD) : FVec Ideal S64x64 .f32 := V c main_arg4
abbrev wd2 (c : Dev nD) : FVec Ideal S64x64 .f32 := V c main_arg5

theorem hz : (![0, 0] : Fin 2 → Nat) = fun _ => 0 := funext fun a => by fin_cases a <;> rfl

/-- Where each window's block sits at a grid point: the message block and the base block move with the output block along
    the rows, every other block index is zero, and there are ten row blocks. -/
theorem idx_facts : ∀ t : Fin cfg2.N, win2_0.index t (0 : Fin 2) = win2_4.index t (0 : Fin 2)
    ∧ win2_0.index t (1 : Fin 2) = 0
    ∧ win2_1.index t (0 : Fin 2) = win2_4.index t (0 : Fin 2)
    ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (1 : Fin 2) = 0 ∧ win2_4.index t (0 : Fin 2) ≤ 9 :=
  (by decide +kernel : ∀ t : Fin grid2.N, _)

/-- Every row block is some grid point's. -/
theorem idx_onto : ∀ q0 : Fin 10, ∃ t : Fin cfg2.N, win2_4.index t = ![q0.val, 0] :=
  (by decide +kernel : ∀ q0 : Fin 10, ∃ t : Fin grid2.N, win2_4.index t = ![q0.val, 0])

/-- What grid point t writes back is block t of the node update of the whole arrays. -/
theorem flushed_eq (c : Dev nD) (t : Fin cfg2.N) :
    (dat2 V c).flushed 4 t = ((cfg2.win 4).blk t).view.read (Elt Ideal) (Cert.Rows.mlp (msg V c) (base V c) (wd1 V c) (wd2 V c)) := by
  show (cfg2.win 4).cut (grid2.coords t) ((dat2 V c).after 4 t) = _
  rw [after2_4]
  unfold out2_4
  rw [View.canon_unit_zero hz]
  simp only [View.ld_unit_zero (S := S10000x64) hz, View.ld_unit_zero (S := S64x64) hz]
  rw [Pay.pay2]
  obtain ⟨e0, e1, e2, e3, e4, e5, e6, e7, e8, e9⟩ := idx_facts t
  funext j
  obtain ⟨p, q, rfl⟩ : ∃ (p : Fin 10000) (q : Fin 64), j = ix2 p q := ⟨j 0, j 1, eq_ix2 j⟩
  have hP : win2_4.index t (0 : Fin 2) * 10000 + p.val < 100000 := by have := p.isLt; omega
  have hemb : ((cfg2.win 4).blk t).view.emb (ix2 p q) = ix2 (⟨win2_4.index t (0 : Fin 2) * 10000 + p.val, hP⟩ : Fin 100000) q := by
    funext a; apply Fin.ext
    match a with
    | ⟨0, _⟩ => show win2_4.index t (0 : Fin 2) * 10000 + 1 * p.val = win2_4.index t (0 : Fin 2) * 10000 + p.val; omega
    | ⟨1, _⟩ => show win2_4.index t (1 : Fin 2) * 64 + 1 * q.val = q.val; omega
  show Cert.Rows.mlp (iblk2 V c 0 t) (iblk2 V c 1 t) (iblk2 V c 2 t) (iblk2 V c 3 t) (ix2 p q)
    = Cert.Rows.mlp (msg V c) (base V c) (wd1 V c) (wd2 V c) (((cfg2.win 4).blk t).view.emb (ix2 p q))
  rw [hemb]
  refine Cert.Rows.mlp_congr (msg V c) (base V c) (iblk2 V c 0 t) (iblk2 V c 1 t) (wd1 V c) (wd2 V c) (iblk2 V c 2 t) (iblk2 V c 3 t) _ p q
    (fun l => ?_) ?_ (fun l k => ?_) (fun k => ?_)
  · show V c main_v22 (((cfg2.win 0).blk t).view.emb (ix2 p l)) = V c main_v22 (ix2 (⟨win2_4.index t (0 : Fin 2) * 10000 + p.val, hP⟩ : Fin 100000) l)
    refine congrArg (V c main_v22) ?_
    funext a; apply Fin.ext
    match a with
    | ⟨0, _⟩ => show win2_0.index t (0 : Fin 2) * 10000 + 1 * p.val = win2_4.index t (0 : Fin 2) * 10000 + p.val; omega
    | ⟨1, _⟩ => show win2_0.index t (1 : Fin 2) * 64 + 1 * l.val = l.val; omega
  · show V c main_v0 (((cfg2.win 1).blk t).view.emb (ix2 p q)) = V c main_v0 (ix2 (⟨win2_4.index t (0 : Fin 2) * 10000 + p.val, hP⟩ : Fin 100000) q)
    refine congrArg (V c main_v0) ?_
    funext a; apply Fin.ext
    match a with
    | ⟨0, _⟩ => show win2_1.index t (0 : Fin 2) * 10000 + 1 * p.val = win2_4.index t (0 : Fin 2) * 10000 + p.val; omega
    | ⟨1, _⟩ => show win2_1.index t (1 : Fin 2) * 64 + 1 * q.val = q.val; omega
  · show V c main_arg4 (((cfg2.win 2).blk t).view.emb (ix2 l k)) = V c main_arg4 (ix2 l k)
    refine congrArg (V c main_arg4) ?_
    funext a; apply Fin.ext
    match a with
    | ⟨0, _⟩ => show win2_2.index t (0 : Fin 2) * 64 + 1 * l.val = l.val; omega
    | ⟨1, _⟩ => show win2_2.index t (1 : Fin 2) * 64 + 1 * k.val = k.val; omega
  · show V c main_arg5 (((cfg2.win 3).blk t).view.emb (ix2 k q)) = V c main_arg5 (ix2 k q)
    refine congrArg (V c main_arg5) ?_
    funext a; apply Fin.ext
    match a with
    | ⟨0, _⟩ => show win2_3.index t (0 : Fin 2) * 64 + 1 * k.val = k.val; omega
    | ⟨1, _⟩ => show win2_3.index t (1 : Fin 2) * 64 + 1 * q.val = q.val; omega

/-- An index of the result array is in grid point t's block iff each coordinate is in the block's range. -/
theorem mem_blk (t : Fin cfg2.N) (i : S100000x64.Idx) :
    i ∈ ((cfg2.win 4).blk t).view.set ↔ ∀ a : Fin 2, win2_4.index t a * S10000x64.size a ≤ (i a).val ∧ (i a).val < win2_4.index t a * S10000x64.size a + S10000x64.size a := by
  show i ∈ ((View.whole main_v23).slice (win2_4.rect t)).set ↔ _
  rw [View.set_slice_whole, Rect.mem_set_unit]
  exact Iff.rfl

/-- Row r of the result is written by the grid point of row block r / 10000. -/
theorem cover (i : S100000x64.Idx) : ∃ t : Fin cfg2.N, (cfg2.win 4).flush t = true ∧ i ∈ ((cfg2.win 4).blk t).view.set := by
  have hi0 : (i 0).val < 100000 := (i 0).isLt
  have hi1 : (i 1).val < 64 := (i 1).isLt
  obtain ⟨t, ht⟩ := idx_onto ⟨(i 0).val / 10000, by omega⟩
  have q0 : win2_4.index t (0 : Fin 2) = (i 0).val / 10000 := congrFun ht 0
  have q1 : win2_4.index t (1 : Fin 2) = 0 := congrFun ht 1
  refine ⟨t, flush2_4 t, ?_⟩
  rw [mem_blk]
  intro a
  match a with
  | ⟨0, _⟩ => show win2_4.index t (0 : Fin 2) * 10000 ≤ (i 0).val ∧ (i 0).val < win2_4.index t (0 : Fin 2) * 10000 + 10000; omega
  | ⟨1, _⟩ => show win2_4.index t (1 : Fin 2) * 64 ≤ (i 1).val ∧ (i 1).val < win2_4.index t (1 : Fin 2) * 64 + 64; omega

/-- After the launch the result array is the node update of the aggregated messages over the base term. -/
theorem final (c : Dev nD) : (dat2 V c).arrAt 4 cfg2.N = Cert.Rows.mlp (msg V c) (base V c) (wd1 V c) (wd2 V c) :=
  (dat2 V c).arrAt_eq_of_cover 4 _ (fun t _ => flushed_eq V c t) cover

end Cert.KernelIdeal.Upd2

end
-- ==== Proof.Chain.lean ====
/-
  The whole program's result as one function of its six arguments.

  After the projection launch the base term is features · W_lin. Each round then aggregates the node states over the edges
  (gather the state at each edge's source, with a negative source index wrapped by the node count, and add it into the
  edge's destination row of a zero array) and applies the node update to the aggregate; the first round starts from the zero state.
  The result is the second round's update: `net`. The buffers are followed through the run: a launch leaves its inputs as it
  found them and its output at the function proved of it, and a host stretch changes only the buffers it writes.
-/
import proofs.«181280_j1666447311066_1_alg».proof.Proof.Gen.KernelIdeal.Frame
import proofs.«181280_j1666447311066_1_alg».proof.Proof.Region0
import proofs.«181280_j1666447311066_1_alg».proof.Proof.Region1
import proofs.«181280_j1666447311066_1_alg».proof.Proof.Region2
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo
open Idealize.ShloMosaic.Pipeline (Dat Cfg Window)

/-- The zero node state. -/
abbrev zeros : FVec Ideal S100000x64 .f32 := broadcastInDim S100000x64 ![] bcast_S_S100000x64 (constant S_ .f32 0x00000000#32)

/-- The sum of the neighbours' states: the state gathered at every edge's source and added at its destination. -/
def agg (u : FVec Ideal S100000x64 .f32) (src dst : IVec S3200000 32) : FVec Ideal S100000x64 .f32 :=
  Host.scatterAdd scatter_S100000x64_S3200000x1_S3200000x64_1_0_0_1 zeros
    (broadcastInDim S3200000x1 ![0] bcast_S3200000_S3200000x1_0 dst)
    (Host.gather gather_S100000x64_S3200000x1_S3200000x64_1_0_n_n_0_1_164 u
      (broadcastInDim S3200000x1 ![0] bcast_S3200000_S3200000x1_0
        (select (cmpi .slt src (broadcastInDim S3200000 ![] bcast_S_S3200000 (constantI S_ 32 0#32)))
          (addi src (broadcastInDim S3200000 ![] bcast_S_S3200000 (constantI S_ 32 100000#32))) src)))

/-- Two rounds of message passing from the zero state over the projected features. -/
def net (x : FVec Ideal S100000x128 .f32) (src dst : IVec S3200000 32) (wl : FVec Ideal S128x64 .f32)
    (w1 w2 : FVec Ideal S64x64 .f32) : FVec Ideal S100000x64 .f32 :=
  Cert.Rows.mlp (agg (Cert.Rows.mlp (agg zeros src dst) (Cert.Rows.lin x wl) w1 w2) src dst) (Cert.Rows.lin x wl) w1 w2

variable (m : (ℓ : Loc nD τ sig) → Buf (Elt Ideal) ℓ) (ρ : Dev nD → PrngReg)

/-- A buffer no operation of a host stretch writes is unchanged by the stretch. -/
local macro "unwritten " ops:ident : term => `(StableHlo.after_of_forall_not_mem _ _ (List.forall_iff_forall_mem.mp (by
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide))))

/-! ## After the projection launch -/

theorem W1_v0 (c : Dev nD) : W1 m ρ c (Proc.devRef .tc main_v0)
    = Cert.Rows.lin (m ((c : Thread nD τ).loc main_arg0)) (m ((c : Thread nD τ).loc main_arg3)) :=
  (W1_arr m ρ c 2).trans (Proj.final (V0 m ρ) c)
theorem W1_arg1 (c : Dev nD) : W1 m ρ c (Proc.devRef .tc main_arg1) = m ((c : Thread nD τ).loc main_arg1) :=
  W1_of_ne m ρ c main_arg1 (by decide)
theorem W1_arg2 (c : Dev nD) : W1 m ρ c (Proc.devRef .tc main_arg2) = m ((c : Thread nD τ).loc main_arg2) :=
  W1_of_ne m ρ c main_arg2 (by decide)
theorem W1_arg4 (c : Dev nD) : W1 m ρ c (Proc.devRef .tc main_arg4) = m ((c : Thread nD τ).loc main_arg4) :=
  W1_of_ne m ρ c main_arg4 (by decide)
theorem W1_arg5 (c : Dev nD) : W1 m ρ c (Proc.devRef .tc main_arg5) = m ((c : Thread nD τ).loc main_arg5) :=
  W1_of_ne m ρ c main_arg5 (by decide)

/-! ## After the first host stretch -/

theorem W2_v11 (c : Dev nD) : W2 m ρ c (Proc.devRef .tc main_v11)
    = agg zeros (m ((c : Thread nD τ).loc main_arg1)) (m ((c : Thread nD τ).loc main_arg2)) := by
  show StableHlo.after hostOps1 (W1 m ρ c) (Proc.devRef .tc main_v11) = _
  after_results
  rw [W1_arg1, W1_arg2]
  rfl
theorem W2_v0 (c : Dev nD) : W2 m ρ c (Proc.devRef .tc main_v0)
    = Cert.Rows.lin (m ((c : Thread nD τ).loc main_arg0)) (m ((c : Thread nD τ).loc main_arg3)) :=
  (show StableHlo.after hostOps1 (W1 m ρ c) (Proc.devRef .tc main_v0) = W1 m ρ c (Proc.devRef .tc main_v0) from unwritten hostOps1).trans (W1_v0 m ρ c)
theorem W2_arg1 (c : Dev nD) : W2 m ρ c (Proc.devRef .tc main_arg1) = m ((c : Thread nD τ).loc main_arg1) :=
  (show StableHlo.after hostOps1 (W1 m ρ c) (Proc.devRef .tc main_arg1) = W1 m ρ c (Proc.devRef .tc main_arg1) from unwritten hostOps1).trans (W1_arg1 m ρ c)
theorem W2_arg2 (c : Dev nD) : W2 m ρ c (Proc.devRef .tc main_arg2) = m ((c : Thread nD τ).loc main_arg2) :=
  (show StableHlo.after hostOps1 (W1 m ρ c) (Proc.devRef .tc main_arg2) = W1 m ρ c (Proc.devRef .tc main_arg2) from unwritten hostOps1).trans (W1_arg2 m ρ c)
theorem W2_arg4 (c : Dev nD) : W2 m ρ c (Proc.devRef .tc main_arg4) = m ((c : Thread nD τ).loc main_arg4) :=
  (show StableHlo.after hostOps1 (W1 m ρ c) (Proc.devRef .tc main_arg4) = W1 m ρ c (Proc.devRef .tc main_arg4) from unwritten hostOps1).trans (W1_arg4 m ρ c)
theorem W2_arg5 (c : Dev nD) : W2 m ρ c (Proc.devRef .tc main_arg5) = m ((c : Thread nD τ).loc main_arg5) :=
  (show StableHlo.after hostOps1 (W1 m ρ c) (Proc.devRef .tc main_arg5) = W1 m ρ c (Proc.devRef .tc main_arg5) from unwritten hostOps1).trans (W1_arg5 m ρ c)

/-! ## After the first update launch -/

/-- The node state after the first round. -/
abbrev u1 (c : Dev nD) : FVec Ideal S100000x64 .f32 :=
  Cert.Rows.mlp (agg zeros (m ((c : Thread nD τ).loc main_arg1)) (m ((c : Thread nD τ).loc main_arg2)))
    (Cert.Rows.lin (m ((c : Thread nD τ).loc main_arg0)) (m ((c : Thread nD τ).loc main_arg3)))
    (m ((c : Thread nD τ).loc main_arg4)) (m ((c : Thread nD τ).loc main_arg5))

theorem W3_v12 (c : Dev nD) : W3 m ρ c (Proc.devRef .tc main_v12) = u1 m c := by
  refine (W3_arr m ρ c 4).trans ((Upd1.final (V2 m ρ) c).trans ?_)
  show Cert.Rows.mlp (W2 m ρ c (Proc.devRef .tc main_v11)) (W2 m ρ c (Proc.devRef .tc main_v0))
    (W2 m ρ c (Proc.devRef .tc main_arg4)) (W2 m ρ c (Proc.devRef .tc main_arg5)) = _
  rw [W2_v11, W2_v0, W2_arg4, W2_arg5]
theorem W3_v0 (c : Dev nD) : W3 m ρ c (Proc.devRef .tc main_v0)
    = Cert.Rows.lin (m ((c : Thread nD τ).loc main_arg0)) (m ((c : Thread nD τ).loc main_arg3)) :=
  ((W3_arr m ρ c 1).trans (((dat1 (V2 m ρ) c).arrAt_in 1 rfl _).trans (A_eq1 (V2 m ρ) c 1))).trans (W2_v0 m ρ c)
theorem W3_arg4 (c : Dev nD) : W3 m ρ c (Proc.devRef .tc main_arg4) = m ((c : Thread nD τ).loc main_arg4) :=
  ((W3_arr m ρ c 2).trans (((dat1 (V2 m ρ) c).arrAt_in 2 rfl _).trans (A_eq1 (V2 m ρ) c 2))).trans (W2_arg4 m ρ c)
theorem W3_arg5 (c : Dev nD) : W3 m ρ c (Proc.devRef .tc main_arg5) = m ((c : Thread nD τ).loc main_arg5) :=
  ((W3_arr m ρ c 3).trans (((dat1 (V2 m ρ) c).arrAt_in 3 rfl _).trans (A_eq1 (V2 m ρ) c 3))).trans (W2_arg5 m ρ c)
theorem W3_arg1 (c : Dev nD) : W3 m ρ c (Proc.devRef .tc main_arg1) = m ((c : Thread nD τ).loc main_arg1) :=
  (W3_of_ne m ρ c main_arg1 (by decide)).trans (W2_arg1 m ρ c)
theorem W3_arg2 (c : Dev nD) : W3 m ρ c (Proc.devRef .tc main_arg2) = m ((c : Thread nD τ).loc main_arg2) :=
  (W3_of_ne m ρ c main_arg2 (by decide)).trans (W2_arg2 m ρ c)

/-! ## After the second host stretch -/

theorem W4_v22 (c : Dev nD) : W4 m ρ c (Proc.devRef .tc main_v22)
    = agg (u1 m c) (m ((c : Thread nD τ).loc main_arg1)) (m ((c : Thread nD τ).loc main_arg2)) := by
  show StableHlo.after hostOps2 (W3 m ρ c) (Proc.devRef .tc main_v22) = _
  after_results
  rw [W3_arg1, W3_arg2, W3_v12]
  rfl
theorem W4_v0 (c : Dev nD) : W4 m ρ c (Proc.devRef .tc main_v0)
    = Cert.Rows.lin (m ((c : Thread nD τ).loc main_arg0)) (m ((c : Thread nD τ).loc main_arg3)) :=
  (show StableHlo.after hostOps2 (W3 m ρ c) (Proc.devRef .tc main_v0) = W3 m ρ c (Proc.devRef .tc main_v0) from unwritten hostOps2).trans (W3_v0 m ρ c)
theorem W4_arg4 (c : Dev nD) : W4 m ρ c (Proc.devRef .tc main_arg4) = m ((c : Thread nD τ).loc main_arg4) :=
  (show StableHlo.after hostOps2 (W3 m ρ c) (Proc.devRef .tc main_arg4) = W3 m ρ c (Proc.devRef .tc main_arg4) from unwritten hostOps2).trans (W3_arg4 m ρ c)
theorem W4_arg5 (c : Dev nD) : W4 m ρ c (Proc.devRef .tc main_arg5) = m ((c : Thread nD τ).loc main_arg5) :=
  (show StableHlo.after hostOps2 (W3 m ρ c) (Proc.devRef .tc main_arg5) = W3 m ρ c (Proc.devRef .tc main_arg5) from unwritten hostOps2).trans (W3_arg5 m ρ c)

/-! ## After the second update launch -/

/-- The result buffer ends at two rounds of message passing over the arguments. -/
theorem W5_v23 (c : Dev nD) : W5 m ρ c (Proc.devRef .tc main_v23)
    = net (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (W5_arr m ρ c 4).trans ((Upd2.final (V4 m ρ) c).trans ?_)
  show Cert.Rows.mlp (W4 m ρ c (Proc.devRef .tc main_v22)) (W4 m ρ c (Proc.devRef .tc main_v0))
    (W4 m ρ c (Proc.devRef .tc main_arg4)) (W4 m ρ c (Proc.devRef .tc main_arg5)) = _
  rw [W4_v22, W4_v0, W4_arg4, W4_arg5]
  rfl

end Cert.KernelIdeal.Chain

end
-- ==== Proof.Ref.lean ====
/-
  The reference's result as the same function of its six arguments.

  The reference computes the projection features · W_lin with one dot_general over all rows, then twice: the neighbours' sum
  (the same gather and scatter-add the kernel's program runs on the host), two dot_generals with a rectifier between them, the
  sum with the projection, and tanh. Read at an entry, a dot_general over all rows is the same sum as the kernel's product over a
  block of rows, so the projection is `Rows.lin` and each round's update is `Rows.mlp` of the aggregate.
-/
import proofs.«181280_j1666447311066_1_alg».proof.Proof.Gen.ReferenceIdeal.Run
import proofs.«181280_j1666447311066_1_alg».proof.Proof.LibPlainDot
import proofs.«181280_j1666447311066_1_alg».proof.Proof.Rows

noncomputable section

open scoped BigOperators

namespace Cert.ReferenceIdeal.RefValue

open Cert.ReferenceIdeal Cert.ReferenceIdeal.Gen Idealize.ShloMosaic Idealize.ShloMosaic.TcCoe Idealize.SL.Sem
open Idealize.ShloMosaic.ValueIdx

/-- The zero node state. -/
abbrev zeros : FVec Ideal S100000x64 .f32 := broadcastInDim S100000x64 ![] bcast_S_S100000x64 (constant S_ .f32 0x00000000#32)

/-- The sum of the neighbours' states: the state gathered at every edge's source and added at its destination. -/
def agg (u : FVec Ideal S100000x64 .f32) (src dst : IVec S3200000 32) : FVec Ideal S100000x64 .f32 :=
  Host.scatterAdd scatter_S100000x64_S3200000x1_S3200000x64_1_0_0_1 zeros
    (broadcastInDim S3200000x1 ![0] bcast_S3200000_S3200000x1_0 dst)
    (Host.gather gather_S100000x64_S3200000x1_S3200000x64_1_0_n_n_0_1_164 u
      (broadcastInDim S3200000x1 ![0] bcast_S3200000_S3200000x1_0
        (select (cmpi .slt src (broadcastInDim S3200000 ![] bcast_S_S3200000 (constantI S_ 32 0#32)))
          (addi src (broadcastInDim S3200000 ![] bcast_S_S3200000 (constantI S_ 32 100000#32))) src)))

/-- Two rounds of message passing from the zero state over the projected features. -/
def net (x : FVec Ideal S100000x128 .f32) (src dst : IVec S3200000 32) (wl : FVec Ideal S128x64 .f32)
    (w1 w2 : FVec Ideal S64x64 .f32) : FVec Ideal S100000x64 .f32 :=
  Cert.Rows.mlp (agg (Cert.Rows.mlp (agg zeros src dst) (Cert.Rows.lin x wl) w1 w2) src dst) (Cert.Rows.lin x wl) w1 w2

/-- The projection: one dot_general over all rows is the row-wise product. -/
theorem proj_eq (x : FVec Ideal S100000x128 .f32) (wl : FVec Ideal S128x64 .f32) :
    Host.dotGeneral dot_S100000x128_S128x64_S100000x64_1_0_0_1_n_n none x wl = Cert.Rows.lin x wl := by
  funext i
  obtain ⟨p, q, rfl⟩ : ∃ (p : Fin 100000) (q : Fin 64), i = ix2 p q := ⟨i 0, i 1, eq_ix2 i⟩
  exact Cert.LibPlainDot.dotGeneral_apply _ none rfl rfl rfl rfl rfl rfl rfl rfl x wl p q

/-- One round's update: the two dot_generals with the rectifier between them, added to the base term under tanh. -/
theorem step_eq (a b : FVec Ideal S100000x64 .f32) (w1 w2 : FVec Ideal S64x64 .f32) :
    Host.tanh (addf b (Host.dotGeneral dot_S100000x64_S64x64_S100000x64_1_0_0_1_n_n none
      (maximumf (Host.dotGeneral dot_S100000x64_S64x64_S100000x64_1_0_0_1_n_n none a w1)
        (broadcastInDim S100000x64 ![] bcast_S_S100000x64 (constant S_ .f32 0x00000000#32))) w2))
      = Cert.Rows.mlp a b w1 w2 := by
  funext i
  obtain ⟨p, q, rfl⟩ : ∃ (p : Fin 100000) (q : Fin 64), i = ix2 p q := ⟨i 0, i 1, eq_ix2 i⟩
  rw [Cert.Rows.mlp_apply]
  refine congrArg (fun s => Ideal.tanh (b (ix2 p q) + s)) ?_
  refine (Cert.LibPlainDot.dotGeneral_apply _ none rfl rfl rfl rfl rfl rfl rfl rfl _ w2 p q).trans ?_
  refine Finset.sum_congr rfl fun k _ => ?_
  refine congrArg (fun s => max s (Ideal.ofBits .f32 0x00000000#32) * w2 (ix2 k q)) ?_
  exact Cert.LibPlainDot.dotGeneral_apply _ none rfl rfl rfl rfl rfl rfl rfl rfl a w1 p k

/-- The reference run's result term is `net` of the arguments. -/
theorem result_eq (x : FVec Ideal S100000x128 .f32) (src dst : IVec S3200000 32) (wl : FVec Ideal S128x64 .f32)
    (w1 w2 : FVec Ideal S64x64 .f32) :
    Host.tanh (addf (Host.dotGeneral dot_S100000x128_S128x64_S100000x64_1_0_0_1_n_n none x wl) (Host.dotGeneral dot_S100000x64_S64x64_S100000x64_1_0_0_1_n_n none (maximumf (Host.dotGeneral dot_S100000x64_S64x64_S100000x64_1_0_0_1_n_n none (Host.scatterAdd scatter_S100000x64_S3200000x1_S3200000x64_1_0_0_1 (broadcastInDim S100000x64 ![] bcast_S_S100000x64 (constant S_ .f32 0x00000000#32)) (broadcastInDim S3200000x1 ![0] bcast_S3200000_S3200000x1_0 dst) (Host.gather gather_S100000x64_S3200000x1_S3200000x64_1_0_n_n_0_1_164 (Host.tanh (addf (Host.dotGeneral dot_S100000x128_S128x64_S100000x64_1_0_0_1_n_n none x wl) (Host.dotGeneral dot_S100000x64_S64x64_S100000x64_1_0_0_1_n_n none (maximumf (Host.dotGeneral dot_S100000x64_S64x64_S100000x64_1_0_0_1_n_n none (Host.scatterAdd scatter_S100000x64_S3200000x1_S3200000x64_1_0_0_1 (broadcastInDim S100000x64 ![] bcast_S_S100000x64 (constant S_ .f32 0x00000000#32)) (broadcastInDim S3200000x1 ![0] bcast_S3200000_S3200000x1_0 dst) (Host.gather gather_S100000x64_S3200000x1_S3200000x64_1_0_n_n_0_1_164 (broadcastInDim S100000x64 ![] bcast_S_S100000x64 (constant S_ .f32 0x00000000#32)) (broadcastInDim S3200000x1 ![0] bcast_S3200000_S3200000x1_0 (select (cmpi .slt src (broadcastInDim S3200000 ![] bcast_S_S3200000 (constantI S_ 32 0#32))) (addi src (broadcastInDim S3200000 ![] bcast_S_S3200000 (constantI S_ 32 100000#32))) src)))) w1) (broadcastInDim S100000x64 ![] bcast_S_S100000x64 (constant S_ .f32 0x00000000#32))) w2))) (broadcastInDim S3200000x1 ![0] bcast_S3200000_S3200000x1_0 (select (cmpi .slt src (broadcastInDim S3200000 ![] bcast_S_S3200000 (constantI S_ 32 0#32))) (addi src (broadcastInDim S3200000 ![] bcast_S_S3200000 (constantI S_ 32 100000#32))) src)))) w1) (broadcastInDim S100000x64 ![] bcast_S_S100000x64 (constant S_ .f32 0x00000000#32))) w2))
      = net x src dst wl w1 w2 := by
  rw [proj_eq, step_eq, step_eq]
  rfl

end Cert.ReferenceIdeal.RefValue

end
-- ==== Proof.lean ====
/-
  A two-round message-passing network on a graph of 100000 nodes and 3200000 edges: the kernel's program and the reference
  compute the same function of their arguments over the extended reals.

  Both programs project the node features with W_lin, start from the zero state and twice replace the state u by
  tanh (projection + max (N u · W_d1, 0) · W_d2), where N u sums u over each node's incoming edges. The reference does the dense
  algebra with whole-array dot_generals; the kernel's program does it in three launches that each work on ten blocks of
  10000 rows, with the operands changed to a sixteen-bit format before each product. Over the extended reals a change of
  format is the identity and a product into a zero accumulator is the plain sum of products, so each launch leaves a row-wise
  function of its whole input arrays (Region0, Region1, Region2); the neighbours' sum is the same host computation in both
  programs and is carried as one function, never opened. Following the buffers through the kernel's run (Chain) gives its
  result as `Chain.net` of the arguments; reading the reference's run entry by entry (Ref) gives the same function.
  No law of arithmetic beyond reading a matrix product as a sum is used, so finiteness of the inputs is never needed.
  The ideal pass rewrote nothing in the kernel, so `preserves` has nothing to state.
-/
import proofs.«181280_j1666447311066_1_alg».proof.Defs
import proofs.«181280_j1666447311066_1_alg».proof.Proof.Gen.Kernel.Frame
import proofs.«181280_j1666447311066_1_alg».proof.Proof.Gen.KernelIdeal.Frame
import proofs.«181280_j1666447311066_1_alg».proof.Proof.Gen.ReferenceIdeal
import proofs.«181280_j1666447311066_1_alg».proof.Proof.Gen.ReferenceIdeal.Run
import proofs.«181280_j1666447311066_1_alg».proof.Proof.Gen.Pre_finite_inputs
import proofs.«181280_j1666447311066_1_alg».proof.Proof.ValueRun
import proofs.«181280_j1666447311066_1_alg».proof.Proof.Chain
import proofs.«181280_j1666447311066_1_alg».proof.Proof.Ref
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference is host operations only: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- The two programs' network functions are one function: they differ only in the names of their shape records. -/
theorem net_eq : @Cert.ReferenceIdeal.RefValue.net = @Cert.KernelIdeal.Chain.net := rfl

/-- From memories agreeing on the six arguments both programs end with the network's value in their result buffers. -/
theorem algebraic : Cert.algebraic_KernelIdeal_ReferenceIdeal := by
  intro m ρ m' ρ' _ hagree
  refine ⟨fun c => Cert.KernelIdeal.Chain.net
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Chain.W5_v23 m ρ c), (h c).2⟩)
      (Cert.KernelIdeal.Gen.run_named m ρ)
  · refine (θ_run Cert.ReferenceIdeal.defs _ _).mono (fun r h c => ⟨(h c).1.trans ?_, (h c).2⟩)
      (Cert.ReferenceIdeal.Value.run (F := Ideal) m' ρ')
    rw [Cert.ReferenceIdeal.RefValue.result_eq, (hagree c).1, (hagree c).2.1, (hagree c).2.2.1, (hagree c).2.2.2.1,
      (hagree c).2.2.2.2.1, (hagree c).2.2.2.2.2, net_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
